-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x32 : Shape := ⟨2, ![96, 32]⟩
abbrev S32 : Shape := ⟨1, ![32]⟩
abbrev S_ : Shape := ⟨0, ![]⟩
abbrev S1x800000 : Shape := ⟨2, ![1, 800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part1 {F : FTy → Type} [FloatOps F] (main_arg1 : IVec S2x800000 32) (main_arg5 : FVec F S32 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S1x800000 32 := (extractStridedSlice S1x800000 ![0, 0] · slices_S2x800000_S1x800000_0_0) main_arg1
  let main_c_8 : IVec S_ 32 := constantI S_ 32 0#32
  let main_v25 : IVec S1x800000 32 := broadcastInDim S1x800000 ![] bcast_S_S1x800000 main_c_8
  let main_v26 : IVec S1x800000 1 := cmpi .sge main_v24 main_v25
  let main_v27 : IVec S1x800000 32 := (extractStridedSlice S1x800000 ![0, 0] · slices_S2x800000_S1x800000_0_0) main_arg1
  let main_c_9 : IVec S_ 32 := constantI S_ 32 50000#32
  let main_v28 : IVec S1x800000 32 := broadcastInDim S1x800000 ![] bcast_S_S1x800000 main_c_9
  let main_v29 : IVec S1x800000 1 := cmpi .slt main_v27 main_v28
  let main_v30 : IVec S1x800000 1 := andi main_v26 main_v29
  let main_c_10 : IVec S_ 1 := constantI S_ 1 1#1
  let main_v31 : IVec S_ 1 := (fun x v => Host.reduce IntOp.andi x v reducesTo_S1x800000_S_d0_1 h_S_) main_v30 main_c_10
  let main_v32 : IVec S_ 1 := andi main_v23 main_v31
  main_v32

def fn {F : FTy → Type} [FloatOps F] (main_arg0 : FVec F S50000x96 .f32) (main_arg1 : IVec S2x800000 32) (main_arg2 : FVec F S96x96 .f32) (main_arg3 : FVec F S96 .f32) (main_arg4 : FVec F S96x32 .f32) (main_arg5 : FVec F S32 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x32 .f32 := Host.absf main_arg4
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg1 main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x32 : Shape := ⟨2, ![96, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x96 : Shape := ⟨2, ![5000, 96]⟩
abbrev S1 : Shape := ⟨1, ![1]⟩
abbrev S1x1 : Shape := ⟨2, ![1, 1]⟩
abbrev S850000x96 : Shape := ⟨2, ![850000, 96]⟩
abbrev S1x96 : Shape := ⟨2, ![1, 96]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 117
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x96, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S1, .i32⟩
  | .hbm, ⟨56, _⟩ => ⟨S_, .i32⟩
  | .hbm, ⟨57, _⟩ => ⟨S850000x1, .i32⟩
  | .hbm, ⟨58, _⟩ => ⟨S850000x1, .i1⟩
  | .hbm, ⟨59, _⟩ => ⟨S1x1, .i32⟩
  | .hbm, ⟨60, _⟩ => ⟨S850000x1, .i32⟩
  | .hbm, ⟨61, _⟩ => ⟨S850000x1, .i1⟩
  | .hbm, ⟨62, _⟩ => ⟨S850000x1, .i1⟩
  | .hbm, ⟨63, _⟩ => ⟨S_, .i1⟩
  | .hbm, ⟨64, _⟩ => ⟨S850000, .i1⟩
  | .hbm, ⟨65, _⟩ => ⟨S850000x96, .f32⟩
  | .hbm, ⟨66, _⟩ => ⟨S850000x96, .i1⟩
  | .hbm, ⟨67, _⟩ => ⟨S_, .f32⟩
  | .hbm, ⟨68, _⟩ => ⟨S850000x96, .f32⟩
  | .hbm, ⟨69, _⟩ => ⟨S850000x96, .f32⟩
  | .hbm, ⟨70, _⟩ => ⟨S850000x1, .f32⟩
  | .hbm, ⟨71, _⟩ => ⟨S850000x96, .f32⟩
  | .hbm, ⟨72, _⟩ => ⟨S850000x96, .f32⟩
  | .hbm, ⟨73, _⟩ => ⟨S_, .f32⟩
  | .hbm, ⟨74, _⟩ => ⟨S50000x96, .f32⟩
  | .hbm, ⟨75, _⟩ => ⟨S850000x1, .i32⟩
  | .hbm, ⟨76, _⟩ => ⟨S50000x96, .f32⟩
  | .hbm, ⟨77, _⟩ => ⟨S1x96, .f32⟩
  | .hbm, ⟨78, _⟩ => ⟨S50000x96, .f32⟩
  | .hbm, ⟨79, _⟩ => ⟨S50000x96, .f32⟩
  | .hbm, ⟨80, _⟩ => ⟨S_, .f32⟩
  | .hbm, ⟨81, _⟩ => ⟨S50000x96, .f32⟩
  | .hbm, ⟨82, _⟩ => ⟨S50000x96, .f32⟩
  | .hbm, ⟨83, _⟩ => ⟨S50000x32, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S1, .i32⟩
  | .hbm, ⟨93, _⟩ => ⟨S_, .i32⟩
  | .hbm, ⟨94, _⟩ => ⟨S850000x1, .i32⟩
  | .hbm, ⟨95, _⟩ => ⟨S850000x1, .i1⟩
  | .hbm, ⟨96, _⟩ => ⟨S1x1, .i32⟩
  | .hbm, ⟨97, _⟩ => ⟨S850000x1, .i32⟩
  | .hbm, ⟨98, _⟩ => ⟨S850000x1, .i1⟩
  | .hbm, ⟨99, _⟩ => ⟨S850000x1, .i1⟩
  | .hbm, ⟨100, _⟩ => ⟨S_, .i1⟩
  | .hbm, ⟨101, _⟩ => ⟨S850000, .i1⟩
  | .hbm, ⟨102, _⟩ => ⟨S850000x32, .f32⟩
  | .hbm, ⟨103, _⟩ => ⟨S850000x32, .i1⟩
  | .hbm, ⟨104, _⟩ => ⟨S_, .f32⟩
  | .hbm, ⟨105, _⟩ => ⟨S850000x32, .f32⟩
  | .hbm, ⟨106, _⟩ => ⟨S850000x32, .f32⟩
  | .hbm, ⟨107, _⟩ => ⟨S850000x1, .f32⟩
  | .hbm, ⟨108, _⟩ => ⟨S850000x32, .f32⟩
  | .hbm, ⟨109, _⟩ => ⟨S850000x32, .f32⟩
  | .hbm, ⟨110, _⟩ => ⟨S_, .f32⟩
  | .hbm, ⟨111, _⟩ => ⟨S50000x32, .f32⟩
  | .hbm, ⟨112, _⟩ => ⟨S850000x1, .i32⟩
  | .hbm, ⟨113, _⟩ => ⟨S50000x32, .f32⟩
  | .hbm, ⟨114, _⟩ => ⟨S1x32, .f32⟩
  | .hbm, ⟨115, _⟩ => ⟨S50000x32, .f32⟩
  | .hbm, ⟨116, _⟩ => ⟨S50000x32, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x32, .f32⟩
  | .local _ .vmem, ⟨8, _⟩ => ⟨S5000x32, .f32⟩
  | .local _ .vmem, ⟨9, _⟩ => ⟨S5000x32, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call2_cst : Ref sig .tc := ⟨.hbm, 80, rfl⟩
abbrev main_call2_v0 : Ref sig .tc := ⟨.hbm, 81, rfl⟩
abbrev main_v41 : Ref sig .tc := ⟨.hbm, 82, rfl⟩
abbrev main_v42 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_7 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x96_0 : S850000.BroadcastsInDim S850000x96 (![0] : Fin 1 → Fin S850000x96.rank)
  bcast_S_S850000x96 : S_.BroadcastsInDim S850000x96 (![] : Fin 0 → Fin S850000x96.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x32_S96x32_0_0 : ∀ a, (![0, 0] : Fin 2 → Nat) a + S96x32.size a ≤ S96x32.size a
  h_S96x32 : 0 < S96x32.numel
  inb_S5000x32_S5000x32_0_0 : ∀ a, (![0, 0] : Fin 2 → Nat) a + S5000x32.size a ≤ S5000x32.size a
  h_S5000x32 : 0 < S5000x32.numel
  bcast_S850000_S850000x32_0 : S850000.BroadcastsInDim S850000x32 (![0] : Fin 1 → Fin S850000x32.rank)
  bcast_S_S850000x32 : S_.BroadcastsInDim S850000x32 (![] : Fin 0 → Fin S850000x32.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x32_S5000x32_1_0_0_1_n_n_wf : DotDims.WF S5000x96 S96x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x32.size a ≤ S96x32.size a
  hwx1_1 : ∀ i : grid1.Coords, EltTy.bits .f32 = 32 ∨ (Rect.block (s := S96x32) S96x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x32_S5000x32_1_0_0_1_n_n : DotDims S5000x96 S96x32 S5000x32 where
  lhsContracting := [1]
  rhsContracting := [0]
  lhsNonContracting := [0]
  rhsNonContracting := [1]
  lhsBatch := []
  rhsBatch := []
  wf := dot_S5000x96_S96x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x32 : Shape := ⟨2, ![96, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x96, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x32, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x32, .f32⟩
  | .hbm, ⟨112, _⟩ => ⟨S850000x1, .f32⟩
  | .hbm, ⟨113, _⟩ => ⟨S850000x32, .f32⟩
  | .hbm, ⟨114, _⟩ => ⟨S850000x32, .f32⟩
  | .hbm, ⟨115, _⟩ => ⟨S_, .f32⟩
  | .hbm, ⟨116, _⟩ => ⟨S50000x32, .f32⟩
  | .hbm, ⟨117, _⟩ => ⟨S850000x1, .i32⟩
  | .hbm, ⟨118, _⟩ => ⟨S50000x32, .f32⟩
  | .hbm, ⟨119, _⟩ => ⟨S1x32, .f32⟩
  | .hbm, ⟨120, _⟩ => ⟨S50000x32, .f32⟩
  | .hbm, ⟨121, _⟩ => ⟨S50000x32, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x32_S50000x32_1_0_0_1_n_n_wf : DotDims.WF S50000x96 S96x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.DenseSpec.lean ====
/-
  The dense layer's product as one function. Over the extended reals the product of a [50000, 96] array of node features
  with a [96, m] weight array has, at node `n` and output feature `f`, the entry `∑ k, x[n, k] · w[k, f]` over the 96
  input features. Both programs compute it — one as a single host contraction, the other 5000 rows at a time on the
  matrix unit — and both are compared with this function.
-/
import Idealize.ShloMosaic.PureOps.Ideal

namespace Cert.Dense

open Idealize.ShloMosaic

variable {m : Nat}

/-- Row `i 0` of the features at input feature `k`. -/
abbrev lhsAt (i : (⟨2, ![50000, m]⟩ : Shape).Idx) (k : Fin 96) : (⟨2, ![50000, 96]⟩ : Shape).Idx := fun a => match a with
  | ⟨0, _⟩ => ⟨(i 0).val, (i 0).isLt⟩
  | ⟨1, _⟩ => ⟨k.val, k.isLt⟩

/-- Input feature `k` of the weights at output feature `i 1`. -/
abbrev rhsAt (i : (⟨2, ![50000, m]⟩ : Shape).Idx) (k : Fin 96) : (⟨2, ![96, m]⟩ : Shape).Idx := fun a => match a with
  | ⟨0, _⟩ => ⟨k.val, k.isLt⟩
  | ⟨1, _⟩ => ⟨(i 1).val, (i 1).isLt⟩

/-- The features times the weights, entry by entry. -/
noncomputable def rowsTimes (x : (⟨2, ![50000, 96]⟩ : Shape).Idx → EReal) (w : (⟨2, ![96, m]⟩ : Shape).Idx → EReal) :
    (⟨2, ![50000, m]⟩ : Shape).Idx → EReal :=
  fun i => ∑ k : Fin 96, x (lhsAt i k) * w (rhsAt i k)

end Cert.Dense
-- ==== Proof.KernelDense0.lean ====
/-
  Dense layer one on the matrix unit, as one array. The pipeline cuts the [50000, 96] input into ten blocks of 5000 rows, keeps the
  [96, 96] weights resident, and at block `t` multiplies the block by the weights into a zero accumulator. At the ideal
  instance the change of format in front of the product is the identity and the product's entry at row `r`, column `f`
  of block `t` is `∑ k, x[5000 t + r, k] · w[k, f]`: the entry of the whole product at row `5000 t + r`. The ten
  blocks tile the result, so after the region the result array is the whole product (`Dense.rowsTimes`).
-/
import proofs.«415691_j24756191494784_2_alg».proof.Proof.Gen.KernelIdeal.Frame
import proofs.«415691_j24756191494784_2_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Cert.Dense
open Idealize.ShloMosaic Idealize.ShloMosaic.TcCoe Idealize.SL.Sem
open Idealize.ShloMosaic.Pipeline (Dat Cfg Window)
open Idealize.ShloMosaic.ValueIdx

/-! ## The body's product at an index -/

theorem lhs_0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_1 (j : S5000x96.Idx) (q : dot_S5000x96_S96x96_S5000x96_1_0_0_1_n_n.contr.Idx) :
    (dot_S5000x96_S96x96_S5000x96_1_0_0_1_n_n.lhsIdx j q 1).val = (q ⟨0, by decide⟩).val :=
  dot_S5000x96_S96x96_S5000x96_1_0_0_1_n_n.lhsIdx_val_of_single rfl j q
theorem rhs_0 (j : S5000x96.Idx) (q : dot_S5000x96_S96x96_S5000x96_1_0_0_1_n_n.contr.Idx) :
    (dot_S5000x96_S96x96_S5000x96_1_0_0_1_n_n.rhsIdx j q 0).val = (q ⟨0, by decide⟩).val :=
  dot_S5000x96_S96x96_S5000x96_1_0_0_1_n_n.rhsIdx_val_of_single rfl j q
theorem rhs_1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- Row `j 0` of the input block at input feature `k`. -/
abbrev blkL (j : S5000x96.Idx) (k : Fin 96) : S5000x96.Idx := fun a => match a with
  | ⟨0, _⟩ => ⟨(j 0).val, (j 0).isLt⟩
  | ⟨1, _⟩ => ⟨k.val, k.isLt⟩
/-- Input feature `k` of the weights at output feature `j 1`. -/
abbrev blkR (j : S5000x96.Idx) (k : Fin 96) : S96x96.Idx := fun a => match a with
  | ⟨0, _⟩ => ⟨k.val, k.isLt⟩
  | ⟨1, _⟩ => ⟨(j 1).val, (j 1).isLt⟩

/-- The body's one stored value, read at an index of the block: the sum over the 96 input features. -/
theorem pay_apply (x0 : Vec Ideal S5000x96 .f32) (x1 : Vec Ideal S96x96 .f32) (j : S5000x96.Idx) :
    k0_pay1 (F := Ideal) x0 x1 j = ∑ k : Fin 96, x0 (blkL j k) * x1 (blkR j k) := by
  unfold k0_pay1
  refine (Ideal.matmul_constant_zero_apply dot_S5000x96_S96x96_S5000x96_1_0_0_1_n_n none _ _ j).trans ?_
  rw [← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx j ((contrEquiv1 dot_S5000x96_S96x96_S5000x96_1_0_0_1_n_n 96 rfl rfl).symm k) = blkL j k := funext fun a => Fin.ext (by
    match a with
    | ⟨0, _⟩ => exact lhs_0 _ _
    | ⟨1, _⟩ => exact (lhs_1 _ _).trans hk)
  have er : dot_S5000x96_S96x96_S5000x96_1_0_0_1_n_n.rhsIdx j ((contrEquiv1 dot_S5000x96_S96x96_S5000x96_1_0_0_1_n_n 96 rfl rfl).symm k) = blkR j k := funext fun a => Fin.ext (by
    match a with
    | ⟨0, _⟩ => exact (rhs_0 _ _).trans hk
    | ⟨1, _⟩ => exact rhs_1 _ _)
  rw [el, er]
  rfl

/-! ## From the blocks to the array -/

theorem hz : (![0, 0] : Fin 2 → Nat) = fun _ => 0 := funext fun a => by fin_cases a <;> rfl

/-- The printed index maps over the ten grid points: the input and output blocks are block `t` along the rows and the
    only block along the columns; the weights are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 V c).flushed 2 t = ((cfg0.win 2).blk t).view.read (Elt Ideal) (rowsTimes (m := 96) (V c main_arg0) (V c main_arg2)) := by
  show (cfg0.win 2).cut (grid0.coords t) ((dat0 V c).after 2 t) = _
  rw [after0_2]
  unfold out0_2
  rw [View.canon_unit_zero hz]
  simp only [View.ld_unit_zero (S := S5000x96) hz, View.ld_unit_zero (S := S96x96) hz]
  obtain ⟨e0, e1, e2, e3, e4, e5⟩ := idx_facts t
  funext j
  show k0_pay1 (F := Ideal) (iblk0 V c 0 t) (iblk0 V c 1 t) j = rowsTimes (m := 96) (V c main_arg0) (V c main_arg2) (((cfg0.win 2).blk t).view.emb j)
  refine (pay_apply (iblk0 V c 0 t) (iblk0 V c 1 t) j).trans ?_
  unfold rowsTimes
  refine Finset.sum_congr rfl fun k _ => ?_
  have h0 : iblk0 V c 0 t (blkL j k) = V c main_arg0 (lhsAt (((cfg0.win 2).blk t).view.emb j) k) := by
    show V c main_arg0 (((cfg0.win 0).blk t).view.emb (blkL j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 96 + 1 * k.val = k.val; omega
  have h1 : iblk0 V c 1 t (blkR j k) = V c main_arg2 (rhsAt (((cfg0.win 2).blk t).view.emb j) k) := by
    show V c main_arg2 (((cfg0.win 1).blk t).view.emb (blkR j k)) = _
    refine congrArg (V c main_arg2) (funext fun a => Fin.ext ?_)
    match a with
    | ⟨0, _⟩ => show win0_1.index t (0 : Fin 2) * 96 + 1 * k.val = k.val; omega
    | ⟨1, _⟩ => show win0_1.index t (1 : Fin 2) * 96 + 1 * (j 1).val = win0_2.index t (1 : Fin 2) * 96 + 1 * (j 1).val; omega
  rw [h0, h1]

/-- An index of the result array is in point `t`'s block iff each coordinate is in the block's range on its axis. -/
theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v30).slice (win0_2.rect t)).set ↔ _
  rw [View.set_slice_whole, Rect.mem_set_unit]
  exact Iff.rfl

/-- Every entry of the result array lies in the block of the point numbered by its row divided by 5000. -/
theorem cover (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : (i 0).val / 5000 < cfg0.N := by rw [show cfg0.N = 10 from N_0]; omega
  obtain ⟨e0, e1, e2, e3, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hN⟩ (1 : Fin 2) * 96 ≤ (i 1).val ∧ (i 1).val < win0_2.index ⟨(i 0).val / 5000, hN⟩ (1 : Fin 2) * 96 + 96
    omega

/-- After the region the result array is the whole product of the input array and the weights as the region found them. -/
theorem final (c : Dev nD) : (dat0 V c).arrAt 2 cfg0.N = rowsTimes (m := 96) (V c main_arg0) (V c main_arg2) :=
  (dat0 V c).arrAt_eq_of_cover 2 _ (fun t _ => flushed_eq V c t) (cover)

end Cert.KernelIdeal.Dense0

end
-- ==== Proof.KernelDense1.lean ====
/-
  Dense layer two on the matrix unit, as one array. The pipeline cuts the [50000, 96] input into ten blocks of 5000 rows, keeps the
  [96, 32] weights resident, and at block `t` multiplies the block by the weights into a zero accumulator. At the ideal
  instance the change of format in front of the product is the identity and the product's entry at row `r`, column `f`
  of block `t` is `∑ k, x[5000 t + r, k] · w[k, f]`: the entry of the whole product at row `5000 t + r`. The ten
  blocks tile the result, so after the region the result array is the whole product (`Dense.rowsTimes`).
-/
import proofs.«415691_j24756191494784_2_alg».proof.Proof.Gen.KernelIdeal.Frame
import proofs.«415691_j24756191494784_2_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Cert.Dense
open Idealize.ShloMosaic Idealize.ShloMosaic.TcCoe Idealize.SL.Sem
open Idealize.ShloMosaic.Pipeline (Dat Cfg Window)
open Idealize.ShloMosaic.ValueIdx

/-! ## The body's product at an index -/

theorem lhs_0 (j : S5000x32.Idx) (q : dot_S5000x96_S96x32_S5000x32_1_0_0_1_n_n.contr.Idx) :
    (dot_S5000x96_S96x32_S5000x32_1_0_0_1_n_n.lhsIdx j q 0).val = (j 0).val := by
  unfold DotDims.lhsIdx
  rw [dif_neg (show ¬(0 : Fin S5000x96.rank) ∈ dot_S5000x96_S96x32_S5000x32_1_0_0_1_n_n.lhsBatch by decide), dif_pos (show (0 : Fin S5000x96.rank) ∈ dot_S5000x96_S96x32_S5000x32_1_0_0_1_n_n.lhsNonContracting by decide)]
  rfl
theorem lhs_1 (j : S5000x32.Idx) (q : dot_S5000x96_S96x32_S5000x32_1_0_0_1_n_n.contr.Idx) :
    (dot_S5000x96_S96x32_S5000x32_1_0_0_1_n_n.lhsIdx j q 1).val = (q ⟨0, by decide⟩).val :=
  dot_S5000x96_S96x32_S5000x32_1_0_0_1_n_n.lhsIdx_val_of_single rfl j q
theorem rhs_0 (j : S5000x32.Idx) (q : dot_S5000x96_S96x32_S5000x32_1_0_0_1_n_n.contr.Idx) :
    (dot_S5000x96_S96x32_S5000x32_1_0_0_1_n_n.rhsIdx j q 0).val = (q ⟨0, by decide⟩).val :=
  dot_S5000x96_S96x32_S5000x32_1_0_0_1_n_n.rhsIdx_val_of_single rfl j q
theorem rhs_1 (j : S5000x32.Idx) (q : dot_S5000x96_S96x32_S5000x32_1_0_0_1_n_n.contr.Idx) :
    (dot_S5000x96_S96x32_S5000x32_1_0_0_1_n_n.rhsIdx j q 1).val = (j 1).val := by
  unfold DotDims.rhsIdx
  rw [dif_neg (show ¬(1 : Fin S96x32.rank) ∈ dot_S5000x96_S96x32_S5000x32_1_0_0_1_n_n.rhsBatch by decide), dif_pos (show (1 : Fin S96x32.rank) ∈ dot_S5000x96_S96x32_S5000x32_1_0_0_1_n_n.rhsNonContracting by decide)]
  rfl

/-- Row `j 0` of the input block at input feature `k`. -/
abbrev blkL (j : S5000x32.Idx) (k : Fin 96) : S5000x96.Idx := fun a => match a with
  | ⟨0, _⟩ => ⟨(j 0).val, (j 0).isLt⟩
  | ⟨1, _⟩ => ⟨k.val, k.isLt⟩
/-- Input feature `k` of the weights at output feature `j 1`. -/
abbrev blkR (j : S5000x32.Idx) (k : Fin 96) : S96x32.Idx := fun a => match a with
  | ⟨0, _⟩ => ⟨k.val, k.isLt⟩
  | ⟨1, _⟩ => ⟨(j 1).val, (j 1).isLt⟩

/-- The body's one stored value, read at an index of the block: the sum over the 96 input features. -/
theorem pay_apply (x0 : Vec Ideal S5000x96 .f32) (x1 : Vec Ideal S96x32 .f32) (j : S5000x32.Idx) :
    k1_pay1 (F := Ideal) x0 x1 j = ∑ k : Fin 96, x0 (blkL j k) * x1 (blkR j k) := by
  unfold k1_pay1
  refine (Ideal.matmul_constant_zero_apply dot_S5000x96_S96x32_S5000x32_1_0_0_1_n_n none _ _ j).trans ?_
  rw [← Equiv.sum_comp (contrEquiv1 dot_S5000x96_S96x32_S5000x32_1_0_0_1_n_n 96 rfl rfl).symm]
  refine Finset.sum_congr rfl fun k _ => ?_
  have hk := contrEquiv1_symm_val dot_S5000x96_S96x32_S5000x32_1_0_0_1_n_n 96 rfl rfl k
  have el : dot_S5000x96_S96x32_S5000x32_1_0_0_1_n_n.lhsIdx j ((contrEquiv1 dot_S5000x96_S96x32_S5000x32_1_0_0_1_n_n 96 rfl rfl).symm k) = blkL j k := funext fun a => Fin.ext (by
    match a with
    | ⟨0, _⟩ => exact lhs_0 _ _
    | ⟨1, _⟩ => exact (lhs_1 _ _).trans hk)
  have er : dot_S5000x96_S96x32_S5000x32_1_0_0_1_n_n.rhsIdx j ((contrEquiv1 dot_S5000x96_S96x32_S5000x32_1_0_0_1_n_n 96 rfl rfl).symm k) = blkR j k := funext fun a => Fin.ext (by
    match a with
    | ⟨0, _⟩ => exact (rhs_0 _ _).trans hk
    | ⟨1, _⟩ => exact rhs_1 _ _)
  rw [el, er]
  show (shapeCast S5000x96 x0 shapeCasts_S5000x96_S5000x96) (blkL j k) * x1 (blkR j k) = x0 (blkL j k) * x1 (blkR j k)
  rw [shapeCast_self]

/-! ## From the blocks to the array -/

theorem hz : (![0, 0] : Fin 2 → Nat) = fun _ => 0 := funext fun a => by fin_cases a <;> rfl

/-- The printed index maps over the ten grid points: the input and output blocks are block `t` along the rows and the
    only block along the columns; the weights are one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the arrays the region finds. -/
theorem flushed_eq (c : Dev nD) (t : Fin cfg1.N) :
    (dat1 V c).flushed 2 t = ((cfg1.win 2).blk t).view.read (Elt Ideal) (rowsTimes (m := 32) (V c main_v41) (V c main_arg4)) := by
  show (cfg1.win 2).cut (grid1.coords t) ((dat1 V c).after 2 t) = _
  rw [after1_2]
  unfold out1_2
  rw [View.canon_unit_zero hz]
  simp only [View.ld_unit_zero (S := S5000x96) hz, View.ld_unit_zero (S := S96x32) hz]
  obtain ⟨e0, e1, e2, e3, e4, e5⟩ := idx_facts t
  funext j
  show k1_pay1 (F := Ideal) (iblk1 V c 0 t) (iblk1 V c 1 t) j = rowsTimes (m := 32) (V c main_v41) (V c main_arg4) (((cfg1.win 2).blk t).view.emb j)
  refine (pay_apply (iblk1 V c 0 t) (iblk1 V c 1 t) j).trans ?_
  unfold rowsTimes
  refine Finset.sum_congr rfl fun k _ => ?_
  have h0 : iblk1 V c 0 t (blkL j k) = V c main_v41 (lhsAt (((cfg1.win 2).blk t).view.emb j) k) := by
    show V c main_v41 (((cfg1.win 0).blk t).view.emb (blkL j k)) = _
    refine congrArg (V c main_v41) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 96 + 1 * k.val = k.val; omega
  have h1 : iblk1 V c 1 t (blkR j k) = V c main_arg4 (rhsAt (((cfg1.win 2).blk t).view.emb j) k) := by
    show V c main_arg4 (((cfg1.win 1).blk t).view.emb (blkR j k)) = _
    refine congrArg (V c main_arg4) (funext fun a => Fin.ext ?_)
    match a with
    | ⟨0, _⟩ => show win1_1.index t (0 : Fin 2) * 96 + 1 * k.val = k.val; omega
    | ⟨1, _⟩ => show win1_1.index t (1 : Fin 2) * 32 + 1 * (j 1).val = win1_2.index t (1 : Fin 2) * 32 + 1 * (j 1).val; omega
  rw [h0, h1]

/-- An index of the result array is in point `t`'s block iff each coordinate is in the block's range on its axis. -/
theorem mem_blk (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v42).slice (win1_2.rect t)).set ↔ _
  rw [View.set_slice_whole, Rect.mem_set_unit]
  exact Iff.rfl

/-- Every entry of the result array lies in the block of the point numbered by its row divided by 5000. -/
theorem cover (i : S50000x32.Idx) : ∃ t : Fin cfg1.N, (cfg1.win 2).flush t = true ∧ i ∈ ((cfg1.win 2).blk t).view.set := by
  have hi0 : (i 0).val < 50000 := (i 0).isLt
  have hi1 : (i 1).val < 32 := (i 1).isLt
  have hN : (i 0).val / 5000 < cfg1.N := by rw [show cfg1.N = 10 from N_1]; omega
  obtain ⟨e0, e1, e2, e3, e4, e5⟩ := idx_facts ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hN⟩ (1 : Fin 2) * 32 ≤ (i 1).val ∧ (i 1).val < win1_2.index ⟨(i 0).val / 5000, hN⟩ (1 : Fin 2) * 32 + 32
    omega

/-- After the region the result array is the whole product of the input array and the weights as the region found them. -/
theorem final (c : Dev nD) : (dat1 V c).arrAt 2 cfg1.N = rowsTimes (m := 32) (V c main_v41) (V c main_arg4) :=
  (dat1 V c).arrAt_eq_of_cover 2 _ (fun t _ => flushed_eq V c t) (cover)

end Cert.KernelIdeal.Dense1

end
-- ==== Proof.Stages.lean ====
/-
  One graph-convolution layer as named stages. Both programs build the same message list from the edge array — sources and
  destinations are row 0 and row 1 of the edges followed by the self loops 0 … 49999 —, the same degrees (a scatter of ones
  over the destinations), the same inverse square roots of the degrees (zero where the degree is not positive), and the
  same edge weights `dinv[src] · dinv[dst]` (each index wrapped by the table length when negative, then read by a clamping
  gather). A layer then takes the GATHERED rows `g` of its dense product, scales row `e` by the weight of message `e`,
  adds the rows into their destinations (a scatter-add over zeros) and adds the bias. The functions below name these
  stages once, over any float family, so that the two programs are compared stage by stage and the scatter and the
  gathers are never opened.
-/
import proofs.«415691_j24756191494784_2_alg».proof.Proof.Gen.ReferenceIdeal

noncomputable section

namespace Cert.Stages

open Cert.ReferenceIdeal Cert.ReferenceIdeal.Gen Idealize.ShloMosaic

variable {F : FTy → Type} [FloatOps F]

/-- The message sources: row 0 of the edge array, then the self loops. -/
def srcOf (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The message destinations: row 1 of the edge array, then the self loops. -/
def dstOf (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- A list of node indices as the column of start indices a gather takes: a negative index wrapped by the table length. -/
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: ones scattered over the destinations. -/
def degOf (dst : IVec S850000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 dst) (broadcastInDim S850000 ![] bcast_S_S850000 (constant S_ .f32 0x3F800000#32))

/-- The inverse square root of the degree where it is positive, zero elsewhere. -/
def dinvOf (dst : IVec S850000 32) : FVec F S50000 .f32 :=
  select (cmpf (F := F) .ogt (degOf dst) (broadcastInDim S50000 ![] bcast_S_S50000 (constant S_ .f32 0x00000000#32)))
    (Host.rsqrt (degOf dst)) (broadcastInDim S50000 ![] bcast_S_S50000 (id (constant S_ .f32 0x00000000#32)))

/-- The weight of every message: the product of the two ends' inverse root degrees. -/
def normOf (src dst : IVec S850000 32) : FVec F S850000 .f32 :=
  mulf (Host.gather gather_S50000_S850000x1_S850000_n_0_n_n_0_1_1 (dinvOf (F := F) dst) (wrapCol src))
    (Host.gather gather_S50000_S850000x1_S850000_n_0_n_n_0_1_1 (dinvOf (F := F) dst) (wrapCol dst))

/-- Layer one from its gathered rows: scale by the message weights, add into the destinations, add the bias. -/
def agg96 (g : FVec F S850000x96 .f32) (dst : IVec S850000 32) (nrm : FVec F S850000 .f32) (b : FVec F S96 .f32) : FVec F S50000x96 .f32 :=
  addf (Host.scatterAdd scatter_S50000x96_S850000x1_S850000x96_1_0_0_1 (broadcastInDim S50000x96 ![] bcast_S_S50000x96 (constant S_ .f32 0x00000000#32))
      (broadcastInDim S850000x1 ![0] bcast_S850000_S850000x1_0 dst)
      (mulf g (broadcastInDim S850000x96 ![0, 1] bcast_S850000x1_S850000x96_0_1 (broadcastInDim S850000x1 ![0] bcast_S850000_S850000x1_0 nrm))))
    (broadcastInDim S50000x96 ![0, 1] bcast_S1x96_S50000x96_0_1 (broadcastInDim S1x96 ![1] bcast_S96_S1x96_1 b))

/-- The rectifier: the maximum with zero. -/
def relu96 (y : FVec F S50000x96 .f32) : FVec F S50000x96 .f32 :=
  maximumf y (broadcastInDim S50000x96 ![] bcast_S_S50000x96 (constant S_ .f32 0x00000000#32))

/-- Layer two from its gathered rows. -/
def agg32 (g : FVec F S850000x32 .f32) (dst : IVec S850000 32) (nrm : FVec F S850000 .f32) (b : FVec F S32 .f32) : FVec F S50000x32 .f32 :=
  addf (Host.scatterAdd scatter_S50000x32_S850000x1_S850000x32_1_0_0_1 (broadcastInDim S50000x32 ![] bcast_S_S50000x32 (constant S_ .f32 0x00000000#32))
      (broadcastInDim S850000x1 ![0] bcast_S850000_S850000x1_0 dst)
      (mulf g (broadcastInDim S850000x32 ![0, 1] bcast_S850000x1_S850000x32_0_1 (broadcastInDim S850000x1 ![0] bcast_S850000_S850000x1_0 nrm))))
    (broadcastInDim S50000x32 ![0, 1] bcast_S1x32_S50000x32_0_1 (broadcastInDim S1x32 ![1] bcast_S32_S1x32_1 b))

end Cert.Stages

end
-- ==== Proof.Masks.lean ====
/-
  Masks that are one everywhere. A row gather that fills the rows whose index falls outside the table with a
  constant is written as: the plain (clamping) gather, a one-bit mask per row saying "this index is inside", the mask
  spread over the row, and a select between the gathered row and the filler. When every index is inside, the mask is
  one everywhere and the select is the gathered array itself. This file has the three generic steps: an `and`-reduction
  of ones is one, a broadcast of ones is ones, a select under ones is its first branch; and the word facts that make a
  small non-negative 32-bit index pass the two range tests and skip the wrap of negative indices.
-/
import Idealize.ShloMosaic.Lib.ReduceAll
import Idealize.ShloMosaic.Lib.ValueIdx
import Idealize.ShloMosaic.Lib.StableHlo.Predicate

namespace Cert.Masks

open Idealize.ShloMosaic

/-- A left fold by `and` that starts at one and meets only ones ends at one. -/
theorem foldl_andi_of_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hf => by
    rw [List.foldl_cons]
    exact foldl_andi_of_ones f l _ (IntOp.andi_eq_one.2 ⟨h, hf a List.mem_cons_self⟩)
      (fun n hn => hf n (List.mem_cons_of_mem _ hn))

/-- An `and`-reduction, along any axes, of an array of ones from the initial value one is one at every result index. -/
theorem reduce_andi_of_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_of_ones x _ _ hinit (fun n _ => hx n)

/-- A broadcast of an array of ones is an array of ones. -/
theorem broadcastInDim_of_ones {s t : Shape} (dims : Fin s.rank → Fin t.rank) (h : s.BroadcastsInDim t dims)
    (x : s.Idx → BitVec 1) (hx : ∀ k, x k = 1#1) (j : t.Idx) : broadcastInDim t dims h x j = 1#1 :=
  hx _

/-- A select whose condition is one everywhere is its first branch. -/
theorem select_of_ones {s : Shape} {α : Type} (c : IVec s 1) (a b : s.Idx → α) (hc : ∀ i, c i = 1#1) :
    select c a b = a := by
  funext i
  rw [ValueIdx.select_apply, hc i]
  exact if_pos rfl

/-- A select whose condition is zero everywhere is its second branch. -/
theorem select_of_zeros {s : Shape} {α : Type} (c : IVec s 1) (a b : s.Idx → α) (hc : ∀ i, c i = 0#1) :
    select c a b = b := by
  funext i
  rw [ValueIdx.select_apply, hc i]
  exact if_neg (by decide)

/-- A one-bit word that is not one is zero. -/
theorem bit_eq_zero_of_ne_one (b : BitVec 1) (h : b ≠ 1#1) : b = 0#1 := by
  revert h; revert b; decide

/-- A word below 50000 is not negative: the signed test `w < 0` answers zero. -/
theorem slt_zero_of_small (w : BitVec 32) (hw : w.toNat < 50000) : IntOp.cmpi .slt w 0#32 = 0#1 := by
  refine bit_eq_zero_of_ne_one _ fun h => ?_
  have := (StableHlo.Predicate.slt_iff_toNat (a := w) (b := 0#32) (by omega) (by decide)).1 h
  simp at this

/-- A word below 50000 passes the signed test `w ≥ 0`. -/
theorem sge_zero_of_small (w : BitVec 32) (hw : w.toNat < 50000) : IntOp.cmpi .sge w 0#32 = 1#1 :=
  (StableHlo.Predicate.sge_iff_toNat (a := w) (b := 0#32) (by omega) (by decide)).2 (by simp)

/-- A word below 50000 passes the signed test `w ≤ 49999`. -/
theorem sle_last_of_small (w : BitVec 32) (hw : w.toNat < 50000) : IntOp.cmpi .sle w 49999#32 = 1#1 :=
  (StableHlo.Predicate.sle_iff_toNat (a := w) (b := 49999#32) (by omega) (by decide)).2
    (by have : (49999#32 : BitVec 32).toNat = 49999 := by decide
        omega)

end Cert.Masks
-- ==== Proof.KernelTake.lean ====
/-
  The kernel's row gather that fills. The kernel gathers the rows of a dense product with a gather that answers a filler
  row where the (wrapped) index is outside the table: it computes the plain, clamping gather, a bit per message saying
  `0 ≤ index ≤ 49999`, spreads the bit over the row and selects. When every source index is a word below 50000 the wrap of
  negative indices does nothing, both tests pass for every message, the bit is one everywhere, and the filling gather IS
  the plain gather — the one the reference uses.
-/
import proofs.«415691_j24756191494784_2_alg».proof.Proof.Gen.KernelIdeal
import proofs.«415691_j24756191494784_2_alg».proof.Proof.Stages
import proofs.«415691_j24756191494784_2_alg».proof.Proof.Masks
import Idealize.ShloMosaic.Lib.ValueIdx

noncomputable section

namespace Cert.KernelIdeal.Take

open Cert.KernelIdeal Cert.KernelIdeal.Gen Cert.Stages Idealize.ShloMosaic

variable {F : FTy → Type} [FloatOps F]

/-- A list of small indices wrapped is itself, entry by entry: every entry of the wrapped column is below 50000. -/
theorem wrapCol_small (v : IVec S850000 32) (hv : ∀ j, (v j).toNat < 50000) (i : S850000x1.Idx) : (wrapCol v i).toNat < 50000 := by
  have hsel : ∀ (z w : IVec S850000 32), (∀ k, z k = 0#32) → ∀ k, (select (cmpi .slt v z) (addi v w) v k).toNat < 50000 := fun z w hz k => by
    rw [ValueIdx.select_apply]
    show (Scalar.select (IntOp.cmpi .slt (v k) (z k)) _ (v k)).toNat < 50000
    rw [hz k, Masks.slt_zero_of_small _ (hv k)]
    show (if (0#1 : BitVec 1) = 1 then _ else v k).toNat < 50000
    rw [if_neg (by decide)]
    exact hv k
  exact hsel _ _ (fun _ => rfl) _

/-- One bit per entry of a column of indices: is the index inside the table, `0 ≤ index ≤ 49999`. -/
def insideCol (col : IVec S850000x1 32) : IVec S850000 1 :=
  Host.reduce IntOp.andi
    (andi (cmpi .sge col (broadcastInDim S850000x1 ![] bcast_S_S850000x1 (constantI S_ 32 0#32)))
      (cmpi .sle col (broadcastInDim S850000x1 ![0, 1] bcast_S1x1_S850000x1_0_1 (broadcastInDim S1x1 ![1] bcast_S1_S1x1_1 (constantI S1 32 49999#32)))))
    (constantI S_ 1 1#1) reducesTo_S850000x1_S850000_d1 h_S_

/-- One bit per message: is its wrapped source index inside the table. -/
def insideOf (v : IVec S850000 32) : IVec S850000 1 := insideCol (wrapCol v)

/-- With every index below 50000 the bit is one for every message. -/
theorem insideOf_of_small (v : IVec S850000 32) (hv : ∀ j, (v j).toNat < 50000) (e : S850000.Idx) : insideOf v e = 1#1 := by
  unfold insideOf insideCol
  refine Masks.reduce_andi_of_ones _ _ _ _ rfl (fun i => ?_) e
  show IntOp.andi (IntOp.cmpi .sge (wrapCol v i) 0#32) (IntOp.cmpi .sle (wrapCol v i) 49999#32) = 1#1
  have hw : (wrapCol v i).toNat < 50000 := wrapCol_small v hv i
  rw [Masks.sge_zero_of_small _ hw, Masks.sle_last_of_small _ hw]
  rfl

/-- The filling gather of layer one: the plain gather of the rows at the wrapped indices, the rows whose index is outside replaced by the filler. -/
def take96 (h : FVec F S50000x96 .f32) (v : IVec S850000 32) : FVec F S850000x96 .f32 :=
  select (broadcastInDim S850000x96 ![0] bcast_S850000_S850000x96_0 (insideOf v))
    (Host.gather gather_S50000x96_S850000x1_S850000x96_1_0_n_n_0_1_196 h (wrapCol v))
    (broadcastInDim S850000x96 ![] bcast_S_S850000x96 (constant S_ .f32 0x7FC00000#32))

/-- With every index below 50000 nothing is filled: the filling gather is the plain gather. -/
theorem take96_of_small (h : FVec F S50000x96 .f32) (v : IVec S850000 32) (hv : ∀ j, (v j).toNat < 50000) :
    take96 h v = Host.gather gather_S50000x96_S850000x1_S850000x96_1_0_n_n_0_1_196 h (wrapCol v) := by
  unfold take96
  exact Masks.select_of_ones _ _ _ (fun i => Masks.broadcastInDim_of_ones _ _ _ (insideOf_of_small v hv) i)

/-- The filling gather of layer two: the plain gather of the rows at the wrapped indices, the rows whose index is outside replaced by the filler. -/
def take32 (h : FVec F S50000x32 .f32) (v : IVec S850000 32) : FVec F S850000x32 .f32 :=
  select (broadcastInDim S850000x32 ![0] bcast_S850000_S850000x32_0 (insideOf v))
    (Host.gather gather_S50000x32_S850000x1_S850000x32_1_0_n_n_0_1_132 h (wrapCol v))
    (broadcastInDim S850000x32 ![] bcast_S_S850000x32 (constant S_ .f32 0x7FC00000#32))

/-- With every index below 50000 nothing is filled: the filling gather is the plain gather. -/
theorem take32_of_small (h : FVec F S50000x32 .f32) (v : IVec S850000 32) (hv : ∀ j, (v j).toNat < 50000) :
    take32 h v = Host.gather gather_S50000x32_S850000x1_S850000x32_1_0_n_n_0_1_132 h (wrapCol v) := by
  unfold take32
  exact Masks.select_of_ones _ _ _ (fun i => Masks.broadcastInDim_of_ones _ _ _ (insideOf_of_small v hv) i)

end Cert.KernelIdeal.Take

end
-- ==== Proof.KernelStretches.lean ====
/-
  The kernel program's host stretches as stages. Between the launch, the two dense regions and the return the kernel's
  @main is three runs of host operations. From ANY buffer contents `Wb`: the first run leaves the message sources, the
  destinations and the message weights as the shared stage functions of the edge array; the second leaves the rectified
  layer one over the FILLING gather of the first dense product; the third leaves layer two over the filling gather of the
  second dense product. Each is read off the operations' fold. The filling gather's own operations are read in three
  chunks — the index column, the bits, the select — so that each reading is a small term.
-/
import proofs.«415691_j24756191494784_2_alg».proof.Proof.Gen.KernelIdeal.Launch
import proofs.«415691_j24756191494784_2_alg».proof.Proof.KernelTake
import Idealize.ShloMosaic.Lib.StableHlo.Run
import Idealize.ShloMosaic.Lib.Pipeline.Frame

set_option maxRecDepth 16384

noncomputable section

namespace Cert.KernelIdeal.Stretches

open Cert.KernelIdeal Cert.KernelIdeal.Gen Cert.Stages Cert.KernelIdeal.Take
open Idealize.ShloMosaic Idealize.ShloMosaic.TcCoe Idealize.SL.Sem Idealize.ShloMosaic.StableHlo

variable {F : FTy → Type} [FloatOps F]

/-- Closes `after ops V b = V b` for a buffer `b` that no operation of the (literal) list `ops` writes. -/
macro "unwritten" : tactic => `(tactic| (
  refine StableHlo.after_of_forall_not_mem _ _ (List.forall_iff_forall_mem.mp ?_)
  simp only [hostOps0, hostOps0_1, hostOps0_2, hostOps1, hostOps1_1, hostOps1_2, hostOps2, hostOps2_1, List.cons_append, List.nil_append,
    List.drop_succ_cons, List.drop_zero, List.take_succ_cons, List.take_zero, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- A list of operations run as three consecutive chunks. -/
theorem after_three (l : List (HloOp τ sig (Elt F))) (V : Valuation τ sig (Elt F)) (a b : Nat) :
    after l V = after ((l.drop a).drop b) (after ((l.drop a).take b) (after (l.take a) V)) := by
  rw [← StableHlo.after_append, ← StableHlo.after_append, List.take_append_drop, List.take_append_drop]

/-! ## Before the first region -/

set_option maxHeartbeats 8000000 in
/-- Before the first region: the message sources. -/
theorem before_src (Wb : Valuation τ sig (Elt F)) :
    after (hostOps0 ++ hostOps0_1 ++ hostOps0_2) Wb (Proc.devRef .tc main_v3) = srcOf (Wb (Proc.devRef .tc main_arg1)) := by
  simp only [hostOps0, hostOps0_1, hostOps0_2, List.cons_append, List.nil_append]
  after_results_simp
  rfl

set_option maxHeartbeats 8000000 in
/-- Before the first region: the message destinations. -/
theorem before_dst (Wb : Valuation τ sig (Elt F)) :
    after (hostOps0 ++ hostOps0_1 ++ hostOps0_2) Wb (Proc.devRef .tc main_v6) = dstOf (Wb (Proc.devRef .tc main_arg1)) := by
  simp only [hostOps0, hostOps0_1, hostOps0_2, List.cons_append, List.nil_append]
  after_results_simp
  rfl

set_option maxHeartbeats 8000000 in
/-- Before the first region: the message weights. -/
theorem before_norm (Wb : Valuation τ sig (Elt F)) :
    after (hostOps0 ++ hostOps0_1 ++ hostOps0_2) Wb (Proc.devRef .tc main_v29)
      = normOf (F := F) (srcOf (Wb (Proc.devRef .tc main_arg1))) (dstOf (Wb (Proc.devRef .tc main_arg1))) := by
  simp only [hostOps0, hostOps0_1, hostOps0_2, List.cons_append, List.nil_append]
  after_results_simp
  rfl

/-! ## The filling gather of layer one: the stretch `hostOps1` in three chunks -/

set_option maxHeartbeats 1000000 in
/-- The first eight operations leave the column of wrapped source indices. -/
theorem col1 (Wb : Valuation τ sig (Elt F)) :
    after ((hostOps1 (F := F)).take 8) Wb (Proc.devRef .tc main_call1_v5) = wrapCol (Wb (Proc.devRef .tc main_v3)) := by
  simp only [hostOps1, List.take_succ_cons, List.take_zero]
  after_results_simp
  simp only [cast_cast, cast_eq]
  rfl

set_option maxHeartbeats 1000000 in
/-- The next ten operations leave the bit "inside the table" of every entry of the index column they find. -/
theorem bit1 (Wb : Valuation τ sig (Elt F)) :
    after (((hostOps1 (F := F)).drop 8).take 10) Wb (Proc.devRef .tc main_call1_v12) = insideCol (Wb (Proc.devRef .tc main_call1_v5)) := by
  simp only [hostOps1, List.drop_succ_cons, List.drop_zero, List.take_succ_cons, List.take_zero]
  after_results_simp
  simp only [cast_cast, cast_eq]
  rfl

set_option maxHeartbeats 1000000 in
/-- The last five operations gather the rows at the index column they find and select by the bits they find. -/
theorem sel1 (Wb : Valuation τ sig (Elt F)) :
    after (((hostOps1 (F := F)).drop 8).drop 10) Wb (Proc.devRef .tc main_v31)
      = select (broadcastInDim S850000x96 ![0] bcast_S850000_S850000x96_0 (Wb (Proc.devRef .tc main_call1_v12)))
          (Host.gather gather_S50000x96_S850000x1_S850000x96_1_0_n_n_0_1_196 (Wb (Proc.devRef .tc main_v30)) (Wb (Proc.devRef .tc main_call1_v5)))
          (broadcastInDim S850000x96 ![] bcast_S_S850000x96 (constant S_ .f32 0x7FC00000#32)) := by
  simp only [hostOps1, List.drop_succ_cons, List.drop_zero]
  after_results_simp
  simp only [cast_cast, cast_eq]

set_option maxHeartbeats 2000000 in
/-- What the chunks do not write: the mask chunk keeps the index column and the product; the index chunk keeps the product. -/
theorem keep1 (Wb : Valuation τ sig (Elt F)) :
    after (((hostOps1 (F := F)).drop 8).take 10) Wb (Proc.devRef .tc main_call1_v5) = Wb (Proc.devRef .tc main_call1_v5)
    ∧ after (((hostOps1 (F := F)).drop 8).take 10) Wb (Proc.devRef .tc main_v30) = Wb (Proc.devRef .tc main_v30)
    ∧ after ((hostOps1 (F := F)).take 8) Wb (Proc.devRef .tc main_v30) = Wb (Proc.devRef .tc main_v30) := by
  refine ⟨?_, ?_, ?_⟩ <;> unwritten

/-- The whole stretch: the filling gather of the array it finds at the source list it finds. -/
theorem take_stretch1 (Wb : Valuation τ sig (Elt F)) :
    after hostOps1 Wb (Proc.devRef .tc main_v31) = take96 (Wb (Proc.devRef .tc main_v30)) (Wb (Proc.devRef .tc main_v3)) := by
  rw [after_three hostOps1 Wb 8 10, sel1, bit1, (keep1 _).1, (keep1 _).2.1, (keep1 _).2.2, col1]
  rfl

set_option maxHeartbeats 2000000 in
/-- The stretch writes neither the destinations, nor the weights, nor the biases. -/
theorem take_keep1 (Wb : Valuation τ sig (Elt F)) :
    after hostOps1 Wb (Proc.devRef .tc main_v6) = Wb (Proc.devRef .tc main_v6)
    ∧ after hostOps1 Wb (Proc.devRef .tc main_v29) = Wb (Proc.devRef .tc main_v29)
    ∧ after hostOps1 Wb (Proc.devRef .tc main_arg3) = Wb (Proc.devRef .tc main_arg3)
    ∧ after hostOps1 Wb (Proc.devRef .tc main_arg5) = Wb (Proc.devRef .tc main_arg5) := by
  refine ⟨?_, ?_, ?_, ?_⟩ <;> unwritten

/-! ## The filling gather of layer two: the stretch `hostOps2` in three chunks -/

set_option maxHeartbeats 1000000 in
/-- The first eight operations leave the column of wrapped source indices. -/
theorem col2 (Wb : Valuation τ sig (Elt F)) :
    after ((hostOps2 (F := F)).take 8) Wb (Proc.devRef .tc main_call3_v5) = wrapCol (Wb (Proc.devRef .tc main_v3)) := by
  simp only [hostOps2, List.take_succ_cons, List.take_zero]
  after_results_simp
  simp only [cast_cast, cast_eq]
  rfl

set_option maxHeartbeats 1000000 in
/-- The next ten operations leave the bit "inside the table" of every entry of the index column they find. -/
theorem bit2 (Wb : Valuation τ sig (Elt F)) :
    after (((hostOps2 (F := F)).drop 8).take 10) Wb (Proc.devRef .tc main_call3_v12) = insideCol (Wb (Proc.devRef .tc main_call3_v5)) := by
  simp only [hostOps2, List.drop_succ_cons, List.drop_zero, List.take_succ_cons, List.take_zero]
  after_results_simp
  simp only [cast_cast, cast_eq]
  rfl

set_option maxHeartbeats 1000000 in
/-- The last five operations gather the rows at the index column they find and select by the bits they find. -/
theorem sel2 (Wb : Valuation τ sig (Elt F)) :
    after (((hostOps2 (F := F)).drop 8).drop 10) Wb (Proc.devRef .tc main_v43)
      = select (broadcastInDim S850000x32 ![0] bcast_S850000_S850000x32_0 (Wb (Proc.devRef .tc main_call3_v12)))
          (Host.gather gather_S50000x32_S850000x1_S850000x32_1_0_n_n_0_1_132 (Wb (Proc.devRef .tc main_v42)) (Wb (Proc.devRef .tc main_call3_v5)))
          (broadcastInDim S850000x32 ![] bcast_S_S850000x32 (constant S_ .f32 0x7FC00000#32)) := by
  simp only [hostOps2, List.drop_succ_cons, List.drop_zero]
  after_results_simp
  simp only [cast_cast, cast_eq]

set_option maxHeartbeats 2000000 in
/-- What the chunks do not write: the mask chunk keeps the index column and the product; the index chunk keeps the product. -/
theorem keep2 (Wb : Valuation τ sig (Elt F)) :
    after (((hostOps2 (F := F)).drop 8).take 10) Wb (Proc.devRef .tc main_call3_v5) = Wb (Proc.devRef .tc main_call3_v5)
    ∧ after (((hostOps2 (F := F)).drop 8).take 10) Wb (Proc.devRef .tc main_v42) = Wb (Proc.devRef .tc main_v42)
    ∧ after ((hostOps2 (F := F)).take 8) Wb (Proc.devRef .tc main_v42) = Wb (Proc.devRef .tc main_v42) := by
  refine ⟨?_, ?_, ?_⟩ <;> unwritten

/-- The whole stretch: the filling gather of the array it finds at the source list it finds. -/
theorem take_stretch2 (Wb : Valuation τ sig (Elt F)) :
    after hostOps2 Wb (Proc.devRef .tc main_v43) = take32 (Wb (Proc.devRef .tc main_v42)) (Wb (Proc.devRef .tc main_v3)) := by
  rw [after_three hostOps2 Wb 8 10, sel2, bit2, (keep2 _).1, (keep2 _).2.1, (keep2 _).2.2, col2]
  rfl

set_option maxHeartbeats 2000000 in
/-- The stretch writes neither the destinations, nor the weights, nor the biases. -/
theorem take_keep2 (Wb : Valuation τ sig (Elt F)) :
    after hostOps2 Wb (Proc.devRef .tc main_v6) = Wb (Proc.devRef .tc main_v6)
    ∧ after hostOps2 Wb (Proc.devRef .tc main_v29) = Wb (Proc.devRef .tc main_v29)
    ∧ after hostOps2 Wb (Proc.devRef .tc main_arg3) = Wb (Proc.devRef .tc main_arg3)
    ∧ after hostOps2 Wb (Proc.devRef .tc main_arg5) = Wb (Proc.devRef .tc main_arg5) := by
  refine ⟨?_, ?_, ?_, ?_⟩ <;> unwritten

/-! ## The aggregations and the rectifier -/

set_option maxHeartbeats 4000000 in
/-- The ten operations after the first filling gather: layer one over the rows they find. -/
theorem agg_stretch1 (Wb : Valuation τ sig (Elt F)) :
    after hostOps1_1 Wb (Proc.devRef .tc main_v40)
      = agg96 (Wb (Proc.devRef .tc main_v31)) (Wb (Proc.devRef .tc main_v6)) (Wb (Proc.devRef .tc main_v29)) (Wb (Proc.devRef .tc main_arg3)) := by
  simp only [hostOps1_1]
  after_results_simp
  rfl

set_option maxHeartbeats 1000000 in
/-- The rectifier's three operations. -/
theorem relu_stretch (Wb : Valuation τ sig (Elt F)) :
    after hostOps1_2 Wb (Proc.devRef .tc main_v41) = relu96 (Wb (Proc.devRef .tc main_v40)) := by
  simp only [hostOps1_2]
  after_results_simp
  simp only [cast_cast, cast_eq]
  rfl

set_option maxHeartbeats 4000000 in
/-- The ten operations after the second filling gather: layer two over the rows they find. -/
theorem agg_stretch2 (Wb : Valuation τ sig (Elt F)) :
    after hostOps2_1 Wb (Proc.devRef .tc main_v52)
      = agg32 (Wb (Proc.devRef .tc main_v43)) (Wb (Proc.devRef .tc main_v6)) (Wb (Proc.devRef .tc main_v29)) (Wb (Proc.devRef .tc main_arg5)) := by
  simp only [hostOps2_1]
  after_results_simp
  rfl

/-! ## The two layers, each over its whole run of host operations -/

/-- Between the regions: the rectified layer one over the filling gather of the first region's result. -/
theorem layer1 (Wb : Valuation τ sig (Elt F)) :
    after (hostOps1 ++ hostOps1_1 ++ hostOps1_2) Wb (Proc.devRef .tc main_v41)
      = relu96 (agg96 (take96 (Wb (Proc.devRef .tc main_v30)) (Wb (Proc.devRef .tc main_v3)))
          (Wb (Proc.devRef .tc main_v6)) (Wb (Proc.devRef .tc main_v29)) (Wb (Proc.devRef .tc main_arg3))) := by
  rw [StableHlo.after_append, StableHlo.after_append, relu_stretch, agg_stretch1, take_stretch1,
    (take_keep1 Wb).1, (take_keep1 Wb).2.1, (take_keep1 Wb).2.2.1]

/-- After the second region: layer two over the filling gather of the second region's result. -/
theorem layer2 (Wb : Valuation τ sig (Elt F)) :
    after (hostOps2 ++ hostOps2_1) Wb (Proc.devRef .tc main_v52)
      = agg32 (take32 (Wb (Proc.devRef .tc main_v42)) (Wb (Proc.devRef .tc main_v3)))
          (Wb (Proc.devRef .tc main_v6)) (Wb (Proc.devRef .tc main_v29)) (Wb (Proc.devRef .tc main_arg5)) := by
  rw [StableHlo.after_append, agg_stretch2, take_stretch2, (take_keep2 Wb).1, (take_keep2 Wb).2.1, (take_keep2 Wb).2.2.2]

end Cert.KernelIdeal.Stretches

end
-- ==== Proof.Spec.lean ====
/-
  The two results as functions of the arguments, over the extended reals. The first result is the rectified layer one
  over the rows of `x · W1` gathered at the message sources; the second is layer two over the rows of (first result) · `W2`
  gathered at the same sources. Dense products are `Dense.rowsTimes`, the layers are the stages of `Stages`.
-/
import proofs.«415691_j24756191494784_2_alg».proof.Proof.Stages
import proofs.«415691_j24756191494784_2_alg».proof.Proof.DenseSpec

noncomputable section

namespace Cert.Spec

open Cert.ReferenceIdeal Cert.ReferenceIdeal.Gen Cert.Stages Cert.Dense Idealize.ShloMosaic

/-- The first result: `relu (A · (x W1) + b1)`, the aggregation `A` written as gather, scale, scatter-add. -/
def out0 (x : FVec Ideal S50000x96 .f32) (ei : IVec S2x800000 32) (w1 : FVec Ideal S96x96 .f32) (b1 : FVec Ideal S96 .f32) :
    FVec Ideal S50000x96 .f32 :=
  relu96 (agg96 (Host.gather gather_S50000x96_S850000x1_S850000x96_1_0_n_n_0_1_196 (rowsTimes (m := 96) x w1) (wrapCol (srcOf ei)))
    (dstOf ei) (normOf (F := Ideal) (srcOf ei) (dstOf ei)) b1)

/-- The second result: `A · (out0 W2) + b2`. -/
def out1 (x : FVec Ideal S50000x96 .f32) (ei : IVec S2x800000 32) (w1 : FVec Ideal S96x96 .f32) (b1 : FVec Ideal S96 .f32)
    (w2 : FVec Ideal S96x32 .f32) (b2 : FVec Ideal S32 .f32) : FVec Ideal S50000x32 .f32 :=
  agg32 (Host.gather gather_S50000x32_S850000x1_S850000x32_1_0_n_n_0_1_132 (rowsTimes (m := 32) (out0 x ei w1 b1) w2) (wrapCol (srcOf ei)))
    (dstOf ei) (normOf (F := Ideal) (srcOf ei) (dstOf ei)) b2

end Cert.Spec

end
-- ==== Proof.KernelValue.lean ====
/-
  What the kernel program's two result buffers hold at the return. The buffer contents at @main's segment boundaries are
  a fold through three host stretches and two regions. Read from the end: the second result is layer two over the filling
  gather of the second region's array; that array is the whole product of the first result with `W2` (the region's blocks
  tile it); the first result is the rectified layer one over the filling gather of the first region's array, the whole
  product `x · W1`; sources, destinations and message weights are the stage functions of the edge array, computed once
  before the first region and never written again. When the source indices are small words the filling gathers are the
  plain gathers, and the two buffers hold the specification's two results.
-/
import proofs.«415691_j24756191494784_2_alg».proof.Proof.Gen.KernelIdeal.Frame
import proofs.«415691_j24756191494784_2_alg».proof.Proof.KernelDense0
import proofs.«415691_j24756191494784_2_alg».proof.Proof.KernelDense1
import proofs.«415691_j24756191494784_2_alg».proof.Proof.KernelStretches
import proofs.«415691_j24756191494784_2_alg».proof.Proof.Spec

set_option maxRecDepth 16384

noncomputable section

namespace Cert.KernelIdeal.Outputs

open Cert.KernelIdeal Cert.KernelIdeal.Gen Cert.Stages Cert.Dense Cert.KernelIdeal.Take Cert.KernelIdeal.Stretches
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The three host stretches as single folds -/

theorem W3_eq (c : Dev nD) : W3 m ρ c = StableHlo.after (hostOps0 ++ hostOps0_1 ++ hostOps0_2) (W0 m ρ c) := by
  rw [StableHlo.after_append, StableHlo.after_append]
theorem W7_eq (c : Dev nD) : W7 m ρ c = StableHlo.after (hostOps1 ++ hostOps1_1 ++ hostOps1_2) (W4 m ρ c) := by
  rw [StableHlo.after_append, StableHlo.after_append]
theorem W10_eq (c : Dev nD) : W10 m ρ c = StableHlo.after (hostOps2 ++ hostOps2_1) (W8 m ρ c) := by
  rw [StableHlo.after_append]

/-! ## Before the first region -/

set_option maxHeartbeats 2000000 in
theorem W3_arg (c : Dev nD) :
    W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5) := by
  rw [W3_eq]
  refine ⟨?_, ?_, ?_, ?_, ?_⟩ <;> unwritten

theorem W3_src (c : Dev nD) : W3 m ρ c (Proc.devRef .tc main_v3) = srcOf (m ((c : Thread nD τ).loc main_arg1)) := by
  rw [W3_eq]; exact Stretches.before_src (W0 m ρ c)
theorem W3_dst (c : Dev nD) : W3 m ρ c (Proc.devRef .tc main_v6) = dstOf (m ((c : Thread nD τ).loc main_arg1)) := by
  rw [W3_eq]; exact Stretches.before_dst (W0 m ρ c)
theorem W3_norm (c : Dev nD) : W3 m ρ c (Proc.devRef .tc main_v29)
    = normOf (F := Ideal) (srcOf (m ((c : Thread nD τ).loc main_arg1))) (dstOf (m ((c : Thread nD τ).loc main_arg1))) := by
  rw [W3_eq]; exact Stretches.before_norm (W0 m ρ c)

/-! ## The first region and the stretch after it -/

/-- The first region's result array: the whole product `x · W1`. -/
theorem W4_dense (c : Dev nD) : W4 m ρ c (Proc.devRef .tc main_v30)
    = rowsTimes (m := 96) (m ((c : Thread nD τ).loc main_arg0)) (m ((c : Thread nD τ).loc main_arg2)) := by
  have h := (W4_arr m ρ c 2).trans (Dense0.final (V3 m ρ) c)
  rw [show V3 m ρ c main_arg0 = m ((c : Thread nD τ).loc main_arg0) from (W3_arg m ρ c).1,
    show V3 m ρ c main_arg2 = m ((c : Thread nD τ).loc main_arg2) from (W3_arg m ρ c).2.1] at h
  exact h

/-- What the first region does not touch it leaves as entered. -/
theorem W4_keep (c : Dev nD) :
    W4 m ρ c (Proc.devRef .tc main_v3) = W3 m ρ c (Proc.devRef .tc main_v3)
    ∧ W4 m ρ c (Proc.devRef .tc main_v6) = W3 m ρ c (Proc.devRef .tc main_v6)
    ∧ W4 m ρ c (Proc.devRef .tc main_v29) = W3 m ρ c (Proc.devRef .tc main_v29)
    ∧ W4 m ρ c (Proc.devRef .tc main_arg3) = W3 m ρ c (Proc.devRef .tc main_arg3)
    ∧ W4 m ρ c (Proc.devRef .tc main_arg4) = W3 m ρ c (Proc.devRef .tc main_arg4)
    ∧ W4 m ρ c (Proc.devRef .tc main_arg5) = W3 m ρ c (Proc.devRef .tc main_arg5) :=
  ⟨W4_of_ne m ρ c main_v3 (by decide), W4_of_ne m ρ c main_v6 (by decide), W4_of_ne m ρ c main_v29 (by decide),
   W4_of_ne m ρ c main_arg3 (by decide), W4_of_ne m ρ c main_arg4 (by decide), W4_of_ne m ρ c main_arg5 (by decide)⟩

/-- At the second region's entry the first result is the rectified layer one over the filling gather of `x · W1`. -/
theorem W7_first (c : Dev nD) : W7 m ρ c (Proc.devRef .tc main_v41)
    = relu96 (agg96 (take96 (rowsTimes (m := 96) (m ((c : Thread nD τ).loc main_arg0)) (m ((c : Thread nD τ).loc main_arg2)))
          (srcOf (m ((c : Thread nD τ).loc main_arg1))))
        (dstOf (m ((c : Thread nD τ).loc main_arg1)))
        (normOf (F := Ideal) (srcOf (m ((c : Thread nD τ).loc main_arg1))) (dstOf (m ((c : Thread nD τ).loc main_arg1))))
        (m ((c : Thread nD τ).loc main_arg3))) := by
  rw [W7_eq]
  refine (Stretches.layer1 (W4 m ρ c)).trans ?_
  obtain ⟨k3, k6, k29, ka3, -, -⟩ := W4_keep m ρ c
  rw [W4_dense, k3, k6, k29, ka3, W3_src, W3_dst, W3_norm, (W3_arg m ρ c).2.2.1]

set_option maxHeartbeats 2000000 in
/-- The stretch between the regions writes neither the message lists nor the later arguments. -/
theorem W7_keep (c : Dev nD) :
    W7 m ρ c (Proc.devRef .tc main_v3) = W4 m ρ c (Proc.devRef .tc main_v3)
    ∧ W7 m ρ c (Proc.devRef .tc main_v6) = W4 m ρ c (Proc.devRef .tc main_v6)
    ∧ W7 m ρ c (Proc.devRef .tc main_v29) = W4 m ρ c (Proc.devRef .tc main_v29)
    ∧ W7 m ρ c (Proc.devRef .tc main_arg4) = W4 m ρ c (Proc.devRef .tc main_arg4)
    ∧ W7 m ρ c (Proc.devRef .tc main_arg5) = W4 m ρ c (Proc.devRef .tc main_arg5) := by
  rw [W7_eq]
  refine ⟨?_, ?_, ?_, ?_, ?_⟩ <;> unwritten

/-! ## The second region and the stretch after it -/

/-- The second region's result array: the whole product of the first result with `W2`. -/
theorem W8_dense (c : Dev nD) : W8 m ρ c (Proc.devRef .tc main_v42)
    = rowsTimes (m := 32) (W7 m ρ c (Proc.devRef .tc main_v41)) (m ((c : Thread nD τ).loc main_arg4)) := by
  have h := (W8_arr m ρ c 2).trans (Dense1.final (V7 m ρ) c)
  rw [show V7 m ρ c main_arg4 = m ((c : Thread nD τ).loc main_arg4) from
    ((W7_keep m ρ c).2.2.2.1.trans (W4_keep m ρ c).2.2.2.2.1).trans (W3_arg m ρ c).2.2.2.1] at h
  exact h

/-- What the second region does not write it leaves as entered; its input array, the first result, too. -/
theorem W8_keep (c : Dev nD) :
    W8 m ρ c (Proc.devRef .tc main_v3) = W7 m ρ c (Proc.devRef .tc main_v3)
    ∧ W8 m ρ c (Proc.devRef .tc main_v6) = W7 m ρ c (Proc.devRef .tc main_v6)
    ∧ W8 m ρ c (Proc.devRef .tc main_v29) = W7 m ρ c (Proc.devRef .tc main_v29)
    ∧ W8 m ρ c (Proc.devRef .tc main_arg5) = W7 m ρ c (Proc.devRef .tc main_arg5)
    ∧ W8 m ρ c (Proc.devRef .tc main_v41) = W7 m ρ c (Proc.devRef .tc main_v41) :=
  ⟨W8_of_ne m ρ c main_v3 (by decide), W8_of_ne m ρ c main_v6 (by decide), W8_of_ne m ρ c main_v29 (by decide),
   W8_of_ne m ρ c main_arg5 (by decide),
   (W8_arr m ρ c 0).trans (((dat1 (V7 m ρ) c).arrAt_in 0 rfl _).trans (A_eq1 (V7 m ρ) c 0))⟩

set_option maxHeartbeats 2000000 in
/-- The last stretch does not write the first result. -/
theorem W10_first (c : Dev nD) : W10 m ρ c (Proc.devRef .tc main_v41) = W7 m ρ c (Proc.devRef .tc main_v41) := by
  rw [W10_eq]
  refine Eq.trans ?_ (W8_keep m ρ c).2.2.2.2
  unwritten

/-- At the return the second result is layer two over the filling gather of (first result) · `W2`. -/
theorem W10_second (c : Dev nD) : W10 m ρ c (Proc.devRef .tc main_v52)
    = agg32 (take32 (rowsTimes (m := 32) (W7 m ρ c (Proc.devRef .tc main_v41)) (m ((c : Thread nD τ).loc main_arg4)))
          (srcOf (m ((c : Thread nD τ).loc main_arg1))))
        (dstOf (m ((c : Thread nD τ).loc main_arg1)))
        (normOf (F := Ideal) (srcOf (m ((c : Thread nD τ).loc main_arg1))) (dstOf (m ((c : Thread nD τ).loc main_arg1))))
        (m ((c : Thread nD τ).loc main_arg5)) := by
  rw [W10_eq]
  refine (Stretches.layer2 (W8 m ρ c)).trans ?_
  obtain ⟨k3, k6, k29, ka5, -⟩ := W8_keep m ρ c
  obtain ⟨j3, j6, j29, -, ja5⟩ := W7_keep m ρ c
  obtain ⟨i3, i6, i29, -, -, ia5⟩ := W4_keep m ρ c
  rw [W8_dense, k3, k6, k29, ka5, j3, j6, j29, ja5, i3, i6, i29, ia5, W3_src, W3_dst, W3_norm, (W3_arg m ρ c).2.2.2.2]

/-! ## With small source indices: the specification -/

/-- The first result buffer at the return holds the specification's first result. -/
theorem first_eq (c : Dev nD) (hsmall : ∀ j, (srcOf (m ((c : Thread nD τ).loc main_arg1)) j).toNat < 50000) :
    W10 m ρ c (Proc.devRef .tc main_v41)
      = Cert.Spec.out0 (m ((c : Thread nD τ).loc main_arg0)) (m ((c : Thread nD τ).loc main_arg1))
          (m ((c : Thread nD τ).loc main_arg2)) (m ((c : Thread nD τ).loc main_arg3)) := by
  rw [W10_first, W7_first, take96_of_small _ _ hsmall]
  rfl

/-- The second result buffer at the return holds the specification's second result. -/
theorem second_eq (c : Dev nD) (hsmall : ∀ j, (srcOf (m ((c : Thread nD τ).loc main_arg1)) j).toNat < 50000) :
    W10 m ρ c (Proc.devRef .tc main_v52)
      = Cert.Spec.out1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W10_second, take32_of_small _ _ hsmall, W7_first, take96_of_small _ _ hsmall]
  rfl

end Cert.KernelIdeal.Outputs

end
-- ==== Proof.RefStages.lean ====
/-
  The reference program, stage by stage. Its first result is the rectified layer one over the gathered rows of the host
  product `x · W1`; its second is layer two over the gathered rows of the host product of the first result with `W2`. The
  reference builds the message weights a second time for layer two, from the same edge array by the same operations: the
  same function of the edge array.
-/
import proofs.«415691_j24756191494784_2_alg».proof.Proof.RefRead
import proofs.«415691_j24756191494784_2_alg».proof.Proof.Stages

set_option maxRecDepth 16384

noncomputable section

namespace Cert.RefStages

open Cert.ReferenceIdeal Cert.ReferenceIdeal.Gen Cert.ReferenceIdeal.ReadP Cert.Stages Idealize.ShloMosaic

variable {F : FTy → Type} [FloatOps F]

/-- The first result: rectified layer one over the rows gathered, at the sources, from the host product `x · W1`. -/
theorem out0_eq (x : FVec F S50000x96 .f32) (ei : IVec S2x800000 32) (w1 : FVec F S96x96 .f32) (b1 : FVec F S96 .f32) :
    val_main_v47 (F := F) x ei w1 b1
      = relu96 (agg96 (Host.gather gather_S50000x96_S850000x1_S850000x96_1_0_n_n_0_1_196 (val_main_v7 (F := F) x w1) (wrapCol (srcOf ei)))
          (dstOf ei) (normOf (F := F) (srcOf ei) (dstOf ei)) b1) := rfl

/-- The second result: layer two over the rows gathered, at the sources, from the host product of the first result with `W2`. -/
theorem out1_eq (x : FVec F S50000x96 .f32) (ei : IVec S2x800000 32) (w1 : FVec F S96x96 .f32) (b1 : FVec F S96 .f32)
    (w2 : FVec F S96x32 .f32) (b2 : FVec F S32 .f32) :
    val_main_v87 (F := F) x ei w1 b1 w2 b2
      = agg32 (Host.gather gather_S50000x32_S850000x1_S850000x32_1_0_n_n_0_1_132
            (Host.dotGeneral dot_S50000x96_S96x32_S50000x32_1_0_0_1_n_n none (val_main_v47 (F := F) x ei w1 b1) w2) (wrapCol (srcOf ei)))
          (dstOf ei) (normOf (F := F) (srcOf ei) (dstOf ei)) b2 := rfl

end Cert.RefStages

end
-- ==== Proof.RefValue.lean ====
/-
  The reference computes the specification. Its two host contractions are, entry by entry at the ideal instance, the
  sums `Dense.rowsTimes` names; the rest of each result is the stages themselves (`RefStages`).
-/
import proofs.«415691_j24756191494784_2_alg».proof.Proof.RefStages
import proofs.«415691_j24756191494784_2_alg».proof.Proof.Spec

set_option maxRecDepth 16384

noncomputable section

namespace Cert.RefValue

open Cert.ReferenceIdeal Cert.ReferenceIdeal.Gen Cert.ReferenceIdeal.ReadP Cert.Stages Cert.Dense Idealize.ShloMosaic

/-- The host product of layer one is the sum over the input features. -/
theorem dense1_eq (x : FVec Ideal S50000x96 .f32) (w1 : FVec Ideal S96x96 .f32) :
    val_main_v7 (F := Ideal) x w1 = rowsTimes (m := 96) x w1 := by
  funext i
  rw [val_main_v7_apply]
  show _ = ∑ k : Fin 96, x (lhsAt i k) * w1 (rhsAt i k)
  refine Finset.sum_congr rfl fun k _ => ?_
  have el : lidx_main_v7 i k = lhsAt i k := funext fun a => Fin.ext (by
    match a with
    | ⟨0, _⟩ => rfl
    | ⟨1, _⟩ => rfl)
  have er : ridx_main_v7 i k = rhsAt i k := funext fun a => Fin.ext (by
    match a with
    | ⟨0, _⟩ => rfl
    | ⟨1, _⟩ => rfl)
  rw [el, er]

/-- The host product of layer two is the sum over the hidden features, whatever its left operand. -/
theorem dense2_eq (h : FVec Ideal S50000x96 .f32) (w2 : FVec Ideal S96x32 .f32) :
    Host.dotGeneral (F := Ideal) dot_S50000x96_S96x32_S50000x32_1_0_0_1_n_n none h w2 = rowsTimes (m := 32) h w2 := by
  funext i
  show Host.dotGeneral (F := Ideal) dot_S50000x96_S96x32_S50000x32_1_0_0_1_n_n none h w2 i = ∑ k : Fin 96, h (lhsAt i k) * w2 (rhsAt i k)
  simp only [Host.dotGeneral]
  rw [Ideal.dotGeneral_apply, ← Equiv.sum_comp (ValueIdx.contrEquiv1 dot_S50000x96_S96x32_S50000x32_1_0_0_1_n_n 96 rfl rfl).symm]
  refine Finset.sum_congr rfl fun k _ => ?_
  have hk := ValueIdx.contrEquiv1_symm_val dot_S50000x96_S96x32_S50000x32_1_0_0_1_n_n 96 rfl rfl k
  have el : dot_S50000x96_S96x32_S50000x32_1_0_0_1_n_n.lhsIdx i ((ValueIdx.contrEquiv1 dot_S50000x96_S96x32_S50000x32_1_0_0_1_n_n 96 rfl rfl).symm k) = lhsAt i k := funext fun a => Fin.ext (by
    match a with
    | ⟨0, _⟩ => exact lhs_main_v48_0 _ _
    | ⟨1, _⟩ => exact (lhs_main_v48_1 _ _).trans hk)
  have er : dot_S50000x96_S96x32_S50000x32_1_0_0_1_n_n.rhsIdx i ((ValueIdx.contrEquiv1 dot_S50000x96_S96x32_S50000x32_1_0_0_1_n_n 96 rfl rfl).symm k) = rhsAt i k := funext fun a => Fin.ext (by
    match a with
    | ⟨0, _⟩ => exact (rhs_main_v48_0 _ _).trans hk
    | ⟨1, _⟩ => exact rhs_main_v48_1 _ _)
  rw [el, er]

/-- The reference's first result is the specification's. -/
theorem out0_eq (x : FVec Ideal S50000x96 .f32) (ei : IVec S2x800000 32) (w1 : FVec Ideal S96x96 .f32) (b1 : FVec Ideal S96 .f32) :
    val_main_v47 (F := Ideal) x ei w1 b1 = Cert.Spec.out0 x ei w1 b1 := by
  rw [Cert.RefStages.out0_eq, dense1_eq]
  rfl

/-- The reference's second result is the specification's. -/
theorem out1_eq (x : FVec Ideal S50000x96 .f32) (ei : IVec S2x800000 32) (w1 : FVec Ideal S96x96 .f32) (b1 : FVec Ideal S96 .f32)
    (w2 : FVec Ideal S96x32 .f32) (b2 : FVec Ideal S32 .f32) :
    val_main_v87 (F := Ideal) x ei w1 b1 w2 b2 = Cert.Spec.out1 x ei w1 b1 w2 b2 := by
  rw [Cert.RefStages.out1_eq, dense2_eq, out0_eq]
  rfl

end Cert.RefValue

end
-- ==== Proof.SourceRange.lean ====
/-
  The source indices are in range. The precondition's last conjunct says that every entry of row 0 of the edge array is a
  node number: non-negative and below 50000 as a signed word, so its unsigned value is below 50000. The list of message
  sources is that row followed by the self loops 0, 1, …, 49999 (an iota), so every source, edge or self loop, is a word
  whose value is below 50000.
-/
import proofs.«415691_j24756191494784_2_alg».proof.Proof.Gen.Pre_finite_inputs
import proofs.«415691_j24756191494784_2_alg».proof.Proof.Masks
import Idealize.ShloMosaic.Lib.ReduceAll
import Idealize.ShloMosaic.Lib.Pipeline.Value

namespace Cert.SourceRange

open Idealize.ShloMosaic

/-- A signed 32-bit word that is at least 0 and less than 50000 has an unsigned value below 50000. -/
theorem small_of_range (w : BitVec 32) (h0 : IntOp.cmpi .sge w 0#32 = 1#1) (h1 : IntOp.cmpi .slt w 50000#32 = 1#1) :
    w.toNat < 50000 := by
  have h0' : BitVec.ofBool ((0#32 : BitVec 32).sle w) = 1#1 := h0
  have h1' : BitVec.ofBool (w.slt 50000#32) = 1#1 := h1
  rw [StableHlo.Predicate.ofBool_eq_one_iff] at h0' h1'
  simp only [BitVec.sle, BitVec.slt, decide_eq_true_eq] at h0' h1'
  have e := BitVec.toInt_eq_toNat_cond w
  have e0 : (0#32 : BitVec 32).toInt = 0 := by decide
  have e1 : (50000#32 : BitVec 32).toInt = 50000 := by decide
  rw [e0] at h0'; rw [e1] at h1'
  split at e <;> omega

open Cert.Pre_finite_inputs in
/-- Under the precondition every entry of row 0 of the edge array, read as the [1, 800000] slice the programs take, is
    below 50000. -/
theorem row0_small {F : FTy → Type} [FloatOps F] (x0 : FVec F S50000x96 .f32) (ei : IVec S2x800000 32)
    (x2 : FVec F S96x96 .f32) (x3 : FVec F S96 .f32) (x4 : FVec F S96x32 .f32) (x5 : FVec F S32 .f32)
    (hpre : fn (F := F) x0 ei x2 x3 x4 x5 = fun _ => 1#1) (i : S1x800000.Idx) :
    (extractStridedSlice S1x800000 ![0, 0] ei Facts.slices_S2x800000_S1x800000_0_0 i).toNat < 50000 := by
  have h := congrFun hpre (fun a => a.elim0)
  dsimp only [fn, fn_part1] at h
  have h31 := (IntOp.andi_eq_one.1 h).2
  haveI : Subsingleton S_.Idx := ⟨fun a b => funext fun d => d.elim0⟩
  have h30 := Host.reduce_andi_all _ _ _ _ _ h31 i
  obtain ⟨hge, hlt⟩ := IntOp.andi_eq_one.1 h30
  exact small_of_range _ hge hlt

/-- A list of 800000 words below 50000 followed by the iota 0 … 49999 is a list of 850000 words below 50000: an entry
    before position 800000 is one of the given words, a later one is its distance from 800000. -/
theorem concat_iota_small (x : (⟨2, ![1, 800000]⟩ : Shape).Idx → BitVec 32) (hx : ∀ i, (x i).toNat < 50000)
    (hsc : (⟨2, ![1, 800000]⟩ : Shape).ShapeCasts ⟨1, ![800000]⟩)
    (hc : Shape.Concatenates [(⟨1, ![800000]⟩ : Shape), ⟨1, ![50000]⟩] ⟨1, ![850000]⟩ 0) (j : (⟨1, ![850000]⟩ : Shape).Idx) :
    (concatenate (⟨1, ![850000]⟩ : Shape) 0
      [⟨⟨1, ![800000]⟩, shapeCast ⟨1, ![800000]⟩ x hsc⟩, ⟨⟨1, ![50000]⟩, iotaInDim ⟨1, ![50000]⟩ 32 0⟩] hc j).toNat < 50000 := by
  have hj850 : (j 0).val < 850000 := (j 0).isLt
  by_cases hj : (j 0).val < 800000
  · rw [concatenate_apply_piece (t := ⟨1, ![850000]⟩) 0
      [⟨⟨1, ![800000]⟩, shapeCast ⟨1, ![800000]⟩ x hsc⟩, ⟨⟨1, ![50000]⟩, iotaInDim ⟨1, ![50000]⟩ 32 0⟩] hc j 0 (by simp)
      ⟨1, ![800000]⟩ (shapeCast ⟨1, ![800000]⟩ x hsc) rfl rfl 0 rfl
      (fun a => ⟨(j 0).val, by have ha : a = 0 := Subsingleton.elim _ _; subst ha; exact hj⟩)
      (fun b hb => absurd (Subsingleton.elim _ _) hb) (by simp)]
    exact hx _
  · rw [concatenate_apply_piece (t := ⟨1, ![850000]⟩) 0
      [⟨⟨1, ![800000]⟩, shapeCast ⟨1, ![800000]⟩ x hsc⟩, ⟨⟨1, ![50000]⟩, iotaInDim ⟨1, ![50000]⟩ 32 0⟩] hc j 1 (by simp)
      ⟨1, ![50000]⟩ (iotaInDim ⟨1, ![50000]⟩ 32 0) rfl rfl 800000 rfl
      (fun a => ⟨(j 0).val - 800000, by
        have ha : a = 0 := Subsingleton.elim _ _
        subst ha
        show (j 0).val - 800000 < 50000
        omega⟩)
      (fun b hb => absurd (Subsingleton.elim _ _) hb)
      (by show 800000 + ((j 0).val - 800000) = (j 0).val; omega)]
    show (BitVec.ofNat 32 ((j 0).val - 800000)).toNat < 50000
    rw [BitVec.toNat_ofNat]
    exact lt_of_le_of_lt (Nat.mod_le _ _) (by omega)

end Cert.SourceRange
-- ==== Proof.SourceSmall.lean ====
/-
  Under the precondition every message source is a word below 50000: the sources are row 0 of the edge array (in range by
  the precondition's last conjunct) followed by the self loops.
-/
import proofs.«415691_j24756191494784_2_alg».proof.Proof.SourceRange
import proofs.«415691_j24756191494784_2_alg».proof.Proof.Stages

namespace Cert.SourceSmall

open Idealize.ShloMosaic

/-- The precondition at the arguments gives: every entry of the message-source list is below 50000. -/
theorem srcOf_small {F : FTy → Type} [FloatOps F] (x0 : FVec F Cert.Pre_finite_inputs.S50000x96 .f32) (ei : IVec Cert.Pre_finite_inputs.S2x800000 32)
    (x2 : FVec F Cert.Pre_finite_inputs.S96x96 .f32) (x3 : FVec F Cert.Pre_finite_inputs.S96 .f32)
    (x4 : FVec F Cert.Pre_finite_inputs.S96x32 .f32) (x5 : FVec F Cert.Pre_finite_inputs.S32 .f32)
    (hpre : Cert.Pre_finite_inputs.fn (F := F) x0 ei x2 x3 x4 x5 = fun _ => 1#1) (j : Cert.ReferenceIdeal.S850000.Idx) :
    (Cert.Stages.srcOf ei j).toNat < 50000 :=
  Cert.SourceRange.concat_iota_small _ (Cert.SourceRange.row0_small x0 ei x2 x3 x4 x5 hpre) _ _ j

end Cert.SourceSmall
-- ==== Proof.lean ====
/-
  Two graph-convolution layers, `x1 = relu (A (x W1) + b1)` and `out = A (x1 W2) + b2`, where `A` is the degree-normalised
  adjacency with self loops written as: gather the rows at the message sources, scale by the message weights, scatter-add
  into the destinations. The kernel program does the two dense products on the matrix unit, 5000 rows at a time, and
  everything else on the host; the reference does all of it on the host.

  Over the extended reals the two programs agree: the blockwise products are the whole products (the format change in front
  of the matrix unit is the identity there, and the ten blocks tile the result); the host stages are the same functions of
  the edge array in both programs (the reference builds the message weights twice, identically); and the kernel's gather,
  which fills the rows whose source index is outside the node range with a filler, IS the reference's clamping gather
  because the precondition puts every edge source in `[0, 50000)` and the self loops are in range by construction.
  No law of arithmetic is needed, so the finiteness of the float inputs is never used.

  The three frames: the two kernel programs' are the generated frame certificates; the reference's is its run with the
  results dropped. `preserves` is `True`: the ideal pass rewrote no operation.
-/
import proofs.«415691_j24756191494784_2_alg».proof.Defs
import proofs.«415691_j24756191494784_2_alg».proof.Proof.Gen.Kernel
import proofs.«415691_j24756191494784_2_alg».proof.Proof.Gen.Kernel.Frame
import proofs.«415691_j24756191494784_2_alg».proof.Proof.Gen.KernelIdeal
import proofs.«415691_j24756191494784_2_alg».proof.Proof.Gen.KernelIdeal.Frame
import proofs.«415691_j24756191494784_2_alg».proof.Proof.Gen.ReferenceIdeal
import proofs.«415691_j24756191494784_2_alg».proof.Proof.Gen.Pre_finite_inputs
import proofs.«415691_j24756191494784_2_alg».proof.Proof.KernelRun
import proofs.«415691_j24756191494784_2_alg».proof.Proof.KernelValue
import proofs.«415691_j24756191494784_2_alg».proof.Proof.RefValue
import proofs.«415691_j24756191494784_2_alg».proof.Proof.SourceSmall
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RunP.run (F := Ideal) m ρ)

/-- Both programs, from memories that agree on the arguments, end with the specification's two results. -/
theorem algebraic : Cert.algebraic_KernelIdeal_ReferenceIdeal := by
  intro m ρ m' ρ' hpre hagree
  refine ⟨fun c => Cert.Spec.out0 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Spec.out1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Results.run_results (F := Ideal) m ρ)
    obtain ⟨h41, h52, hargs⟩ := h c
    have hsmall := Cert.SourceSmall.srcOf_small _ _ _ _ _ _ (hpre c)
    exact ⟨h41.trans (Cert.KernelIdeal.Outputs.first_eq m ρ c hsmall), h52.trans (Cert.KernelIdeal.Outputs.second_eq m ρ c hsmall), hargs⟩
  · refine (θ_run Cert.ReferenceIdeal.defs _ _).mono (fun r h c => ?_) (Cert.ReferenceIdeal.RunP.run (F := Ideal) m' ρ')
    obtain ⟨h47, h87, hargs⟩ := h c
    obtain ⟨a0, a1, a2, a3, a4, a5⟩ := hagree c
    refine ⟨?_, ?_, hargs⟩
    · rw [h47, Cert.ReferenceIdeal.ReadP.val_main_v47_eq, Cert.RefValue.out0_eq, a0, a1, a2, a3]
    · rw [h87, Cert.ReferenceIdeal.ReadP.val_main_v87_eq, Cert.RefValue.out1_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
